-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x256 : Shape := ⟨3, ![8, 2048, 256]⟩
abbrev S8x2048x1 : Shape := ⟨3, ![8, 2048, 1]⟩
abbrev S2048x2048 : Shape := ⟨2, ![2048, 2048]⟩
abbrev S256x256 : Shape := ⟨2, ![256, 256]⟩
abbrev S256 : Shape := ⟨1, ![256]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x256 : S_.BroadcastsInDim S8x2048x256 (![] : Fin 0 → Fin S8x2048x256.rank)
  reducesTo_S8x2048x256_S_d0_1_2 : S8x2048x256.ReducesTo [0, 1, 2] S_
  bcast_S_S8x2048x1 : S_.BroadcastsInDim S8x2048x1 (![] : Fin 0 → Fin S8x2048x1.rank)
  reducesTo_S8x2048x1_S_d0_1_2 : S8x2048x1.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x2048x2048 .f32) (main_arg1 : FVec F S8x2048x256 .f32) (main_arg2 : FVec F S8x2048x1 .f32) (main_arg3 : FVec F S2048x2048 .f32) (main_arg4 : FVec F S256x256 .f32) (main_arg5 : FVec F S256 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S8x2048x1 .f32 := Host.absf main_arg2
  let main_cst_2 : FVec F S_ .f32 := constant S_ .f32 0x7F800000#32
  let main_v10 : FVec F S8x2048x1 .f32 := broadcastInDim S8x2048x1 ![] bcast_S_S8x2048x1 main_cst_2
  let main_v11 : IVec S8x2048x1 1 := cmpf .olt main_v9 main_v10
  let main_c_3 : IVec S_ 1 := constantI S_ 1 1#1
  let main_v12 : IVec S_ 1 := (fun x v => Host.reduce IntOp.andi x v reducesTo_S8x2048x1_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S8x2048x2048 : Shape := ⟨3, ![8, 2048, 2048]⟩
abbrev S8x2048x256 : Shape := ⟨3, ![8, 2048, 256]⟩
abbrev S8x2048x1 : Shape := ⟨3, ![8, 2048, 1]⟩
abbrev S2048x2048 : Shape := ⟨2, ![2048, 2048]⟩
abbrev S256x256 : Shape := ⟨2, ![256, 256]⟩
abbrev S256 : Shape := ⟨1, ![256]⟩
abbrev S1x256 : Shape := ⟨2, ![1, 256]⟩
abbrev S1x512x256 : Shape := ⟨3, ![1, 512, 256]⟩
abbrev S512x256 : Shape := ⟨2, ![512, 256]⟩
abbrev S1x512x2048 : Shape := ⟨3, ![1, 512, 2048]⟩
abbrev S512x2048 : Shape := ⟨2, ![512, 2048]⟩
abbrev S1x2048x256 : Shape := ⟨3, ![1, 2048, 256]⟩
abbrev S2048x256 : Shape := ⟨2, ![2048, 256]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S8x2048x256, .f32⟩
  | .hbm, ⟨2, _⟩ => ⟨S8x2048x1, .f32⟩
  | .hbm, ⟨3, _⟩ => ⟨S2048x2048, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S1x256, .f32⟩
  | .hbm, ⟨8, _⟩ => ⟨S8x2048x256, .bf16⟩
  | .hbm, ⟨9, _⟩ => ⟨S8x2048x256, .f32⟩
  | .local _ .vmem, ⟨0, _⟩ => ⟨S1x512x256, .f32⟩
  | .local _ .vmem, ⟨1, _⟩ => ⟨S1x512x256, .f32⟩
  | .local _ .vmem, ⟨2, _⟩ => ⟨S256x256, .f32⟩
  | .local _ .vmem, ⟨3, _⟩ => ⟨S1x256, .f32⟩
  | .local _ .vmem, ⟨4, _⟩ => ⟨S1x512x256, .bf16⟩
  | .local _ .vmem, ⟨5, _⟩ => ⟨S1x512x256, .bf16⟩
  | .local _ .vmem, ⟨6, _⟩ => ⟨S1x512x2048, .f32⟩
  | .local _ .vmem, ⟨7, _⟩ => ⟨S1x512x2048, .f32⟩
  | .local _ .vmem, ⟨8, _⟩ => ⟨S512x2048, .f32⟩
  | .local _ .vmem, ⟨9, _⟩ => ⟨S512x2048, .f32⟩
  | .local _ .vmem, ⟨10, _⟩ => ⟨S8x2048x256, .bf16⟩
  | .local _ .vmem, ⟨11, _⟩ => ⟨S1x512x256, .f32⟩
  | .local _ .vmem, ⟨12, _⟩ => ⟨S1x512x256, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def k1_off1 (i : grid1.Coords) : Fin 3 → Nat :=
  let arg1 : BitVec 32 := BitVec.ofNat 32 (i 1).val
  let v0 : Index := Scalar.indexCast arg1
  let c0 : Index := 0#32
  let c0_0 : Index := 0#32
  ![v0.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S8x2048x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S256x256_S256x256_1_0 : S256x256.Transposes [1, 0] S256x256
  shapeCasts_S256_S1x256 : S256.ShapeCasts S1x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  h_S1x2048x256 : 0 < S1x2048x256.numel
  shapeCasts_S1x2048x256_S2048x256 : S1x2048x256.ShapeCasts S2048x256
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  broadcasts_S512x1_S512x256 : S512x1.Broadcasts S512x256
  dot_S512x256_S256x256_S512x256_1_0_0_1_n_n_wf : DotDims.WF S512x256 S256x256 S512x256 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S8x2048x256.size a
  hwx0_3 : ∀ i : grid0.Coords, EltTy.bits .bf16 = 32 ∨ (Rect.block (s := S8x2048x256) S1x512x256.size (cc0_transform_3 i) (hinb0_3 i)).WholeWords (EltTy.packing .bf16)
  hrank1 : 0 < grid1.rank
  k1_off1_inb : ∀ i : grid1.Coords, ∀ a, (k1_off1 i) a + S1x2048x256.size a ≤ S8x2048x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S8x2048x2048.size a
  hwx1_0 : ∀ i : grid1.Coords, EltTy.bits .f32 = 32 ∨ (Rect.block (s := S8x2048x2048) S1x512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .f32 = 32 ∨ (Rect.block (s := S2048x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x2048x256.size a ≤ S8x2048x256.size a
  hwx1_2 : ∀ i : grid1.Coords, EltTy.bits .bf16 = 32 ∨ (Rect.block (s := S8x2048x256) S8x2048x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x256.size a ≤ S8x2048x256.size a
  hwx1_3 : ∀ i : grid1.Coords, EltTy.bits .f32 = 32 ∨ (Rect.block (s := S8x2048x256) S1x512x256.size (cc1_transform_3 i) (hinb1_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg1) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8x2048x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x2048 : Shape := ⟨3, ![8, 2048, 2048]⟩
abbrev S8x2048x256 : Shape := ⟨3, ![8, 2048, 256]⟩
abbrev S8x2048x1 : Shape := ⟨3, ![8, 2048, 1]⟩
abbrev S2048x2048 : Shape := ⟨2, ![2048, 2048]⟩
abbrev S256x256 : Shape := ⟨2, ![256, 256]⟩
abbrev S256 : Shape := ⟨1, ![256]⟩
abbrev S1x2048x2048 : Shape := ⟨3, ![1, 2048, 2048]⟩
abbrev S_ : Shape := ⟨0, ![]⟩
abbrev S8x2048 : Shape := ⟨2, ![8, 2048]⟩
abbrev S1x1x256 : Shape := ⟨3, ![1, 1, 256]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x256, .f32⟩
  | .hbm, ⟨2, _⟩ => ⟨S8x2048x1, .f32⟩
  | .hbm, ⟨3, _⟩ => ⟨S2048x2048, .f32⟩
  | .hbm, ⟨4, _⟩ => ⟨S256x256, .f32⟩
  | .hbm, ⟨5, _⟩ => ⟨S256, .f32⟩
  | .hbm, ⟨6, _⟩ => ⟨S1x2048x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x256, .f32⟩
  | .hbm, ⟨24, _⟩ => ⟨S1x1x256, .f32⟩
  | .hbm, ⟨25, _⟩ => ⟨S8x2048x256, .f32⟩
  | .hbm, ⟨26, _⟩ => ⟨S8x2048x256, .f32⟩
  | .hbm, ⟨27, _⟩ => ⟨S8x2048x256, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  dot_S8x2048x256_S256x256_S8x2048x256_2_1_01_0_n_n_wf : DotDims.WF S8x2048x256 S256x256 S8x2048x256 [2] [1] [0, 1] [0] [] []
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.Spec.lean ====
/-
  Masked-softmax attention over a projected value array, as functions of the argument arrays on the extended reals.

  With scores s[b,n,k] = corr[b,n,k] + mask[n,k], row maximum μ[b,n] = max_k s[b,n,k], weights
  p[b,n,k] = exp (s[b,n,k] − μ[b,n]), normaliser ℓ[b,n] = Σ_k p[b,n,k] and projected values
  v[b,k,d] = Σ_c feat[b,k,c] · v_w[d,c] + v_b[d], one program divides AFTER the contraction,
      (Σ_k p[b,n,k] · v[b,k,d]) / ℓ[b,n],
  the other BEFORE it,
      Σ_k (p[b,n,k] / ℓ[b,n]) · v[b,k,d].
  On finite inputs every quantity is a real number and ℓ ≥ 1 > 0 (the maximum is attained, so one weight is
  exp 0), and division by a nonzero real is multiplication by its reciprocal, which distributes over a finite
  sum of reals: the two are equal. (At infinite inputs they need not be: the law is distributivity.)
-/
import Idealize.ShloMosaic.PureOps.Ideal
import Idealize.ShloMosaic.PureOps.Ideal.Laws
import Idealize.ShloMosaic.Lib.ValueIdx
import Mathlib.Data.Finset.Fold

noncomputable section

namespace Cert.Attn

open Idealize.ShloMosaic Idealize.ShloMosaic.ValueIdx
open scoped BigOperators

/-- The shapes of the five arrays that are read. -/
abbrev SC : Shape := ⟨3, ![8, 2048, 2048]⟩
abbrev SM : Shape := ⟨2, ![2048, 2048]⟩
abbrev SF : Shape := ⟨3, ![8, 2048, 256]⟩
abbrev SW : Shape := ⟨2, ![256, 256]⟩
abbrev SB : Shape := ⟨1, ![256]⟩

/-- The float pattern both programs start the row maximum from: −∞. -/
abbrev negInf : EReal := Ideal.ofBits .f32 0xFF800000#32

theorem negInf_eq : negInf = (⊥ : EReal) := by simp [negInf, Ideal.ofBits, Ideal.ieee]

variable (X : SC.Idx → EReal) (M : SM.Idx → EReal) (Fe : SF.Idx → EReal) (Wt : SW.Idx → EReal) (Bi : SB.Idx → EReal)

/-- The masked score of query row `n` against key `k` in batch `b`. -/
def score (b : Fin 8) (n : Fin 2048) (k : Fin 2048) : EReal := X (ix3 b n k) + M (ix2 n k)

/-- The row's maximum score, folded from −∞. -/
def rowMax (b : Fin 8) (n : Fin 2048) : EReal := (Finset.univ : Finset (Fin 2048)).fold max negInf (score X M b n)

/-- The unnormalised softmax weight. -/
def weight (b : Fin 8) (n : Fin 2048) (k : Fin 2048) : EReal := Ideal.exp (score X M b n k - rowMax X M b n)

/-- The row's normaliser. -/
def denom (b : Fin 8) (n : Fin 2048) : EReal := ∑ k : Fin 2048, weight X M b n k

/-- The projected value: a dense layer of the features. -/
def value (b : Fin 8) (k : Fin 2048) (d : Fin 256) : EReal := (∑ c : Fin 256, Fe (ix3 b k c) * Wt (ix2 d c)) + Bi (ix1 d)

/-- The projected values as an array. -/
def valueArr : SF.Idx → EReal := fun i => value Fe Wt Bi (i 0) (i 1) (i 2)

/-- Attention over ANY value array `Vv`, the division after the contraction. -/
def attnDivAfter (Vv : SF.Idx → EReal) : SF.Idx → EReal := fun i =>
  Ideal.div (∑ k : Fin 2048, weight X M (i 0) (i 1) k * Vv (ix3 (i 0) k (i 2))) (denom X M (i 0) (i 1))

/-- Attention over the projected values, the division before the contraction. -/
def attnDivBefore : SF.Idx → EReal := fun i =>
  ∑ k : Fin 2048, Ideal.div (weight X M (i 0) (i 1) k) (denom X M (i 0) (i 1)) * value Fe Wt Bi (i 0) k (i 2)

/-! ## The law -/

/-- A finite sum of reals, embedded term by term, is the embedded sum. -/
theorem coe_sum {ι : Type} (s : Finset ι) (f : ι → ℝ) :
    (∑ k ∈ s, ((f k : ℝ) : EReal)) = (((∑ k ∈ s, f k) : ℝ) : EReal) := by
  classical
  refine Finset.induction_on s (by simp) ?_
  intro a s ha ih
  rw [Finset.sum_insert ha, Finset.sum_insert ha, ih, EReal.coe_add]

/-- Dividing a sum of real products by a nonzero real divides one factor of every term. -/
theorem div_sum_real {n : ℕ} (p v : Fin n → ℝ) (D : ℝ) (hD : D ≠ 0) :
    Ideal.div (∑ k, ((p k : ℝ) : EReal) * ((v k : ℝ) : EReal)) (D : EReal)
      = ∑ k, Ideal.div ((p k : ℝ) : EReal) (D : EReal) * ((v k : ℝ) : EReal) := by
  simp only [Ideal.div_coe hD, ← EReal.coe_mul, coe_sum]
  refine congrArg _ ?_
  rw [Finset.sum_mul]
  exact Finset.sum_congr rfl fun k _ => by ring

/-- The maximum of finitely many reals over a nonempty range, folded from −∞, is a real. -/
theorem fold_max_real {n : ℕ} (f : Fin (n + 1) → ℝ) :
    ∃ r : ℝ, (Finset.univ : Finset (Fin (n + 1))).fold max (⊥ : EReal) (fun k => ((f k : ℝ) : EReal)) = (r : EReal) := by
  have hb : (Finset.univ : Finset (Fin (n + 1))).fold max (⊥ : EReal) (fun k => ((f k : ℝ) : EReal)) ≠ ⊥ :=
    ne_of_gt ((Finset.lt_fold_max _).mpr (Or.inr ⟨0, Finset.mem_univ _, EReal.bot_lt_coe _⟩))
  have ht : (Finset.univ : Finset (Fin (n + 1))).fold max (⊥ : EReal) (fun k => ((f k : ℝ) : EReal)) ≠ ⊤ :=
    ne_of_lt ((Finset.fold_max_lt _).mpr ⟨bot_lt_top, fun k _ => EReal.coe_lt_top _⟩)
  exact ⟨_, (EReal.coe_toReal ht hb).symm⟩

section Finite

variable {X M Fe Wt Bi}
variable (hX : ∀ i, ∃ r : ℝ, X i = (r : EReal)) (hM : ∀ i, ∃ r : ℝ, M i = (r : EReal))
  (hF : ∀ i, ∃ r : ℝ, Fe i = (r : EReal)) (hW : ∀ i, ∃ r : ℝ, Wt i = (r : EReal)) (hB : ∀ i, ∃ r : ℝ, Bi i = (r : EReal))

include hX hM in
/-- On finite inputs a score is a real. -/
theorem score_real (b : Fin 8) (n : Fin 2048) (k : Fin 2048) : ∃ r : ℝ, score X M b n k = (r : EReal) := by
  obtain ⟨x, hx⟩ := hX (ix3 b n k)
  obtain ⟨y, hy⟩ := hM (ix2 n k)
  exact ⟨x + y, by unfold score; rw [hx, hy, EReal.coe_add]⟩

include hX hM in
/-- On finite inputs every weight is a positive real. -/
theorem weight_real (b : Fin 8) (n : Fin 2048) :
    ∃ w : Fin 2048 → ℝ, (∀ k, weight X M b n k = ((w k : ℝ) : EReal)) ∧ ∀ k, 0 < w k := by
  choose s hs using score_real hX hM b n
  obtain ⟨mx, hmx⟩ := fold_max_real (n := 2047) s
  have hrow : rowMax X M b n = (mx : EReal) := by
    unfold rowMax
    rw [negInf_eq, show score X M b n = fun k => ((s k : ℝ) : EReal) from funext hs]
    exact hmx
  refine ⟨fun k => Real.exp (s k - mx), fun k => ?_, fun k => Real.exp_pos _⟩
  unfold weight
  rw [hrow, hs k, ← EReal.coe_sub]
  rfl

include hF hW hB in
/-- On finite inputs a projected value is a real. -/
theorem value_real (b : Fin 8) (k : Fin 2048) (d : Fin 256) : ∃ r : ℝ, value Fe Wt Bi b k d = (r : EReal) := by
  choose f hf using hF
  choose w hw using hW
  obtain ⟨y, hy⟩ := hB (ix1 d)
  refine ⟨(∑ c : Fin 256, f (ix3 b k c) * w (ix2 d c)) + y, ?_⟩
  unfold value
  simp only [hf, hw, hy, ← EReal.coe_mul, coe_sum, ← EReal.coe_add]

include hX hM hF hW hB in
/-- THE LAW: on finite inputs, dividing after the contraction (over the projected values) and dividing before it
    give the same array. -/
theorem attnDivAfter_eq_attnDivBefore :
    attnDivAfter X M (valueArr Fe Wt Bi) = attnDivBefore X M Fe Wt Bi := by
  funext i
  obtain ⟨w, hw, hpos⟩ := weight_real hX hM (i 0) (i 1)
  choose v hv using fun k => value_real hF hW hB (i 0) k (i 2)
  have hden : denom X M (i 0) (i 1) = ((∑ k, w k : ℝ) : EReal) := by
    unfold denom; rw [← coe_sum]; exact Finset.sum_congr rfl fun k _ => hw k
  have hD : (∑ k, w k : ℝ) ≠ 0 := ne_of_gt (Finset.sum_pos (fun k _ => hpos k) ⟨0, Finset.mem_univ _⟩)
  unfold attnDivAfter attnDivBefore
  rw [hden]
  have e1 : (∑ k : Fin 2048, weight X M (i 0) (i 1) k * valueArr Fe Wt Bi (ix3 (i 0) k (i 2)))
      = ∑ k : Fin 2048, ((w k : ℝ) : EReal) * ((v k : ℝ) : EReal) :=
    Finset.sum_congr rfl fun k _ => by rw [hw k]; unfold valueArr; exact congrArg _ (hv k)
  have e2 : (∑ k : Fin 2048, Ideal.div (weight X M (i 0) (i 1) k) ((∑ k, w k : ℝ) : EReal) * value Fe Wt Bi (i 0) k (i 2))
      = ∑ k : Fin 2048, Ideal.div ((w k : ℝ) : EReal) ((∑ k, w k : ℝ) : EReal) * ((v k : ℝ) : EReal) :=
    Finset.sum_congr rfl fun k _ => by rw [hw k, hv k]
  rw [e1, e2]
  exact div_sum_real w v _ hD

end Finite

end Cert.Attn

end
-- ==== Proof.Finite.lean ====
/-
  From the precondition to real entries. The printed predicate is the conjunction, over the six float arguments, of
  "every |x| compares below +∞"; on the extended reals |x| = max x (−x) is below +∞ exactly when x is neither
  infinity, i.e. when x is a real number.
-/
import proofs.«406694_j78752520339658_3_alg».proof.Pre_finite_inputs
import proofs.«406694_j78752520339658_3_alg».proof.Proof.Gen.Pre_finite_inputs
import Idealize.ShloMosaic.Lib.ReduceAll
import Idealize.ShloMosaic.Lib.ValueIdx
import Idealize.ShloMosaic.PureOps.Ideal

noncomputable section

namespace Cert.Finite

open Cert.Pre_finite_inputs Cert.Pre_finite_inputs.Gen
open Idealize.ShloMosaic

instance : Subsingleton S_.Idx := ⟨fun a b => funext fun d => d.elim0⟩

/-- The float pattern of +∞ is the top extended real. -/
theorem posInf_eq : Ideal.ofBits .f32 0x7F800000#32 = (⊤ : EReal) := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [posInf_eq] at h
  induction x using EReal.rec with
  | bot => simp [Ideal.cmp] at h
  | top => simp [Ideal.cmp] at h
  | coe r => exact ⟨r, rfl⟩

/-- Under the precondition every entry of the score, feature, mask, weight and bias arrays is a real number. -/
theorem reals_of_pre (a0 : FVec Ideal S8x2048x2048 .f32) (a1 : FVec Ideal S8x2048x256 .f32) (a2 : FVec Ideal S8x2048x1 .f32)
    (a3 : FVec Ideal S2048x2048 .f32) (a4 : FVec Ideal S256x256 .f32) (a5 : FVec Ideal S256 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i)⟩

end Cert.Finite

end
-- ==== Proof.RefValue.lean ====
/-
  The reference, stage by stage, is the specification's attention with the division BEFORE the contraction: its
  broadcast mask added to the scores, its row maximum (a host reduction from −∞, then a maximum with −∞ again, which
  changes nothing), its exponentials and their row sum (a host reduction from 0), its quotient, its dense layer of
  the features, and its batched contraction over the keys — each read at an index.
-/
import proofs.«406694_j78752520339658_3_alg».proof.Proof.Gen.ReferenceIdeal.Read
import proofs.«406694_j78752520339658_3_alg».proof.Proof.Spec
import Idealize.ShloMosaic.PureOps.Reduce

noncomputable section

namespace Cert.ReferenceIdeal.RefValue

open Cert.ReferenceIdeal Cert.ReferenceIdeal.Gen Cert.ReferenceIdeal.Read Cert.Attn
open Idealize.ShloMosaic Idealize.ShloMosaic.TcCoe Idealize.ShloMosaic.ValueIdx Idealize.SL.Sem
open scoped BigOperators

variable (x0 : (⟨S8x2048x2048, .f32⟩ : BufTy).Contents (Elt Ideal)) (x1 : (⟨S8x2048x256, .f32⟩ : BufTy).Contents (Elt Ideal))
  (x3 : (⟨S2048x2048, .f32⟩ : BufTy).Contents (Elt Ideal)) (x4 : (⟨S256x256, .f32⟩ : BufTy).Contents (Elt Ideal))
  (x5 : (⟨S256, .f32⟩ : BufTy).Contents (Elt Ideal))

/-- The masked scores. -/
theorem score_eq (b : Fin 8) (n k : Fin 2048) : val_main_v2 (F := Ideal) x0 x3 (ix3 b n k) = score x0 x3 b n k := by
  rw [val_main_v2_apply, val_main_v1_apply, val_main_v0_apply]
  show x0 (ix3 b n k) + x3 (idx_main_v0 (idx_main_v1 (ix3 b n k))) = x0 (ix3 b n k) + x3 (ix2 n k)
  exact congrArg (fun j => x0 (ix3 b n k) + x3 j)
    (funext fun a => Fin.ext (by match a with | ⟨0, _⟩ => rfl | ⟨1, _⟩ => rfl))

/-- The row maximum: the host's reduction over the key axis is the fold of `max` over the row, and the maximum with
    −∞ that follows it is the identity. -/
theorem rowMax_eq (b : Fin 8) (n : Fin 2048) : val_main_v5 (F := Ideal) x0 x3 (ix2 b n) = rowMax x0 x3 b n := by
  have hred : S8x2048x2048.Reduces [2] S8x2048 := by decide
  have hl : ∀ k : Fin 2048, hred.lift (ix2 b n) k = ix3 b n k := fun k =>
    funext fun c => Fin.ext (by match c with | ⟨0, _⟩ => rfl | ⟨1, _⟩ => rfl | ⟨2, _⟩ => rfl)
  have hf : (val_main_v2 (F := Ideal) x0 x3 ∘ hred.lift (ix2 b n)) = score x0 x3 b n :=
    funext fun k => (congrArg (val_main_v2 (F := Ideal) x0 x3) (hl k)).trans (score_eq x0 x3 b n k)
  rw [val_main_v5_apply, val_main_v4_apply, val_main_cst_0_apply]
  unfold val_main_v3
  have e := Host.reduce_eq_fold_single (α := Ideal .f32) (FloatOps.maximumf (F := Ideal) (φ := .f32))
    (val_main_v2 (F := Ideal) x0 x3) (val_main_cst (F := Ideal))
    reducesTo_S8x2048x2048_S8x2048_d2 hred h_S_ (ix2 b n)
  rw [hf] at e
  refine (congrArg (FloatOps.maximumf (F := Ideal) (φ := .f32) (FloatOps.ofBits (F := Ideal) .f32 0xFF800000#32)) e).trans ?_
  show max negInf ((Finset.univ : Finset (Fin 2048)).fold max negInf (score x0 x3 b n)) = rowMax x0 x3 b n
  unfold rowMax
  rw [negInf_eq]
  exact max_eq_right bot_le

/-- The unnormalised weights. -/
theorem weight_eq (b : Fin 8) (n k : Fin 2048) : val_main_v9 (F := Ideal) x0 x3 (ix3 b n k) = weight x0 x3 b n k := by
  have e : idx_main_v6 (idx_main_v7 (ix3 b n k)) = ix2 b n :=
    funext fun a => Fin.ext (by match a with | ⟨0, _⟩ => rfl | ⟨1, _⟩ => rfl)
  rw [val_main_v9_apply, val_main_v8_apply, val_main_v7_apply, val_main_v6_apply, e, score_eq, rowMax_eq]
  rfl

/-- The normaliser: the host's sum from 0 over the key axis. -/
theorem denom_eq (b : Fin 8) (n : Fin 2048) : val_main_v10 (F := Ideal) x0 x3 (ix2 b n) = denom x0 x3 b n := by
  rw [val_main_v10_apply, val_main_cst_1_apply]
  show Ideal.ofBits .f32 0x00000000#32 + ∑ k : Fin 2048, val_main_v9 (F := Ideal) x0 x3 (idx_main_v10 (ix2 b n) k) = denom x0 x3 b n
  rw [Ideal.ofBits_zero_f32, zero_add]
  unfold denom
  refine Finset.sum_congr rfl fun k _ => ?_
  refine (congrArg (val_main_v9 (F := Ideal) x0 x3) ?_).trans (weight_eq x0 x3 b n k)
  exact funext fun a => Fin.ext (by match a with | ⟨0, _⟩ => rfl | ⟨1, _⟩ => rfl | ⟨2, _⟩ => rfl)

/-- The softmax probabilities. -/
theorem prob_eq (b : Fin 8) (n k : Fin 2048) :
    val_main_v13 (F := Ideal) x0 x3 (ix3 b n k) = Ideal.div (weight x0 x3 b n k) (denom x0 x3 b n) := by
  have e : idx_main_v11 (idx_main_v12 (ix3 b n k)) = ix2 b n :=
    funext fun a => Fin.ext (by match a with | ⟨0, _⟩ => rfl | ⟨1, _⟩ => rfl)
  rw [val_main_v13_apply, val_main_v12_apply, val_main_v11_apply, e, weight_eq, denom_eq]
  rfl

/-- The projected values: the dense layer of the features. -/
theorem value_eq (b : Fin 8) (k : Fin 2048) (d : Fin 256) :
    val_main_v17 (F := Ideal) x1 x4 x5 (ix3 b k d) = value x1 x4 x5 b k d := by
  rw [val_main_v17_apply, val_main_v14_apply, val_main_v16_apply, val_main_v15_apply]
  unfold value
  show (∑ c : Fin 256, x1 (lidx_main_v14 (ix3 b k d) c) * x4 (ridx_main_v14 (ix3 b k d) c))
      + x5 (idx_main_v15 (idx_main_v16 (ix3 b k d))) = _
  refine congrArg₂ (· + ·) (Finset.sum_congr rfl fun c _ => congrArg₂ (· * ·) (congrArg x1 ?_) (congrArg x4 ?_)) (congrArg x5 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- THE REFERENCE'S RESULT is attention with the division before the contraction. -/
theorem result_eq : val_main_v18 (F := Ideal) x0 x1 x3 x4 x5 = attnDivBefore x0 x3 x1 x4 x5 := by
  funext i
  obtain ⟨b, n, d, rfl⟩ : ∃ (b : Fin 8) (n : Fin 2048) (d : Fin 256), i = ix3 b n d := ⟨i 0, i 1, i 2, eq_ix3 i⟩
  rw [val_main_v18_apply]
  unfold attnDivBefore
  refine Finset.sum_congr rfl fun k _ => congrArg₂ (· * ·) ?_ ?_
  · refine (congrArg (val_main_v13 (F := Ideal) x0 x3) ?_).trans (prob_eq x0 x3 b n k)
    exact funext fun a => Fin.ext (by match a with | ⟨0, _⟩ => rfl | ⟨1, _⟩ => rfl | ⟨2, _⟩ => rfl)
  · refine (congrArg (val_main_v17 (F := Ideal) x1 x4 x5) ?_).trans (value_eq x1 x4 x5 b k d)
    exact funext fun a => Fin.ext (by match a with | ⟨0, _⟩ => rfl | ⟨1, _⟩ => rfl | ⟨2, _⟩ => rfl)

end Cert.ReferenceIdeal.RefValue

end
-- ==== Proof.ProjPay.lean ====
/-
  The first region's arithmetic read at an index: the block the projection kernel stores is, at (row r, column d),
  Σ_k x[r,k] · wT[k,d] + bias[d] of its three loaded blocks — the rounding to bf16 on the way in and on the way out
  is the identity on the extended reals.
-/
import proofs.«406694_j78752520339658_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjPay

open Cert.KernelIdeal Cert.KernelIdeal.Gen
open Idealize.ShloMosaic Idealize.ShloMosaic.TcCoe Idealize.ShloMosaic.ValueIdx Idealize.SL.Sem
open scoped BigOperators

/-! ### The contraction's operand indices, axis by axis -/

theorem lhs_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The matrix product into a zero accumulator, at (r, d): the sum over the shared axis. -/
theorem matmul_apply (a : FVec Ideal S512x256 .bf16) (b : FVec Ideal S256x256 .bf16) (r : Fin 512) (d : Fin 256) :
    matmul dot_S512x256_S256x256_S512x256_1_0_0_1_n_n none a b (constant (F := Ideal) S512x256 .f32 0x00000000#32) (ix2 r d)
      = ∑ k : Fin 256, a (ix2 r k) * b (ix2 k d) := by
  simp only [matmul]
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 r d) ((ValueIdx.contrEquiv1 dot_S512x256_S256x256_S512x256_1_0_0_1_n_n 256 rfl rfl).symm k) = ix2 r k := funext fun a => Fin.ext (by
    match a with
    | ⟨0, _⟩ => exact lhs_0 _ _
    | ⟨1, _⟩ => exact (lhs_1 _ _).trans hk)
  have er : dot_S512x256_S256x256_S512x256_1_0_0_1_n_n.rhsIdx (ix2 r d) ((ValueIdx.contrEquiv1 dot_S512x256_S256x256_S512x256_1_0_0_1_n_n 256 rfl rfl).symm k) = ix2 k d := funext fun a => Fin.ext (by
    match a with
    | ⟨0, _⟩ => exact (rhs_0 _ _).trans hk
    | ⟨1, _⟩ => exact rhs_1 _ _)
  rw [el, er]

/-- The stored block at (u, r, d) — `u` the unit batch coordinate. -/
theorem pay_apply (x0 : Vec Ideal S1x512x256 .f32) (x1 : Vec Ideal S256x256 .f32) (x2 : Vec Ideal S1x256 .f32)
    (u : Fin 1) (r : Fin 512) (d : Fin 256) :
    k0_pay1 (F := Ideal) x0 x1 x2 (ix3 u r d)
      = (∑ k : Fin 256, x0 (ix3 (0 : Fin 1) r k) * x1 (ix2 k d)) + x2 (ix2 (0 : Fin 1) d) := by
  unfold k0_pay1
  refine (shapeCast_ab_1ab_apply _ _ u r d).trans ?_
  show matmul dot_S512x256_S256x256_S512x256_1_0_0_1_n_n none
        (truncf .bf16 (shapeCast S512x256 x0 shapeCasts_S1x512x256_S512x256) bitsLt_bf16_f32)
        (truncf .bf16 (shapeCast S256x256 x1 shapeCasts_S256x256_S256x256) bitsLt_bf16_f32)
        (constant (F := Ideal) S512x256 .f32 0x00000000#32) (ix2 r d)
      + broadcastTo S512x256 (shapeCast S1x256 x2 shapeCasts_S1x256_S1x256) broadcasts_S1x256_S512x256 (ix2 r d) = _
  refine congrArg₂ (· + ·) ((matmul_apply _ _ r d).trans ?_) ((broadcastTo_1b_ab_apply _ _ r d).trans ?_)
  · refine Finset.sum_congr rfl fun k _ => ?_
    refine congrArg₂ (· * ·) ?_ ?_
    · exact shapeCast_1ab_ab_apply x0 shapeCasts_S1x512x256_S512x256 r k
    · exact congrFun (shapeCast_self x1 shapeCasts_S256x256_S256x256) (ix2 k d)
  · exact congrFun (shapeCast_self x2 shapeCasts_S1x256_S1x256) (ix2 (0 : Fin 1) d)

end Cert.KernelIdeal.ProjPay

end
-- ==== Proof.ProjValue.lean ====
/-
  The first region's result array. Grid point t = (b, q) of the 8 × 4 grid stores the [1,512,256] block of rows
  512q … 512q+511 of batch b; read through the window, the stored block is the dense layer
      G[b,n,d] = Σ_k A[b,n,k] · Wt[k,d] + B2[0,d]
  of the arrays the region finds (features A, transposed weight Wt, bias row B2), restricted to that block. The 32
  blocks tile the array, so after the region the array IS G. With the two host operations before the region read
  back (Wt the transpose of the weight, B2 the bias as one row) G is the specification's projected-value array.
-/
import proofs.«406694_j78752520339658_3_alg».proof.Proof.Gen.KernelIdeal.Frame
import proofs.«406694_j78752520339658_3_alg».proof.Proof.ProjPay
import proofs.«406694_j78752520339658_3_alg».proof.Proof.Spec
import Idealize.ShloMosaic.Lib.Pipeline.Value
import Idealize.ShloMosaic.Lib.StableHlo.Run

set_option maxRecDepth 16384

noncomputable section

namespace Cert.KernelIdeal.ProjValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz3 : (![0, 0, 0] : Fin 3 → Nat) = fun _ => 0 := funext fun a => by fin_cases a <;> rfl
theorem hz2 : (![0, 0] : Fin 2 → Nat) = fun _ => 0 := funext fun a => by fin_cases a <;> rfl

/-- The dense layer as the region computes it: features against the TRANSPOSED weight, plus the bias row. -/
def G0 (A : FVec Ideal S8x2048x256 .f32) (Wt : FVec Ideal S256x256 .f32) (B2 : FVec Ideal S1x256 .f32) :
    FVec Ideal S8x2048x256 .bf16 :=
  fun i => (∑ k : Fin 256, A (ix3 (i 0) (i 1) k) * Wt (ix2 k (i 2))) + B2 (ix2 (0 : Fin 1) (i 2))

/-- The stored block at any index of the block. -/
theorem pay_at (x0 : Vec Ideal S1x512x256 .f32) (x1 : Vec Ideal S256x256 .f32) (x2 : Vec Ideal S1x256 .f32)
    (j : S1x512x256.Idx) :
    k0_pay1 (F := Ideal) x0 x1 x2 j
      = (∑ k : Fin 256, x0 (ix3 (0 : Fin 1) (j 1) k) * x1 (ix2 k (j 2))) + x2 (ix2 (0 : Fin 1) (j 2)) := by
  obtain ⟨u, r, d, rfl⟩ : ∃ (u : Fin 1) (r : Fin 512) (d : Fin 256), j = ix3 u r d := ⟨j 0, j 1, j 2, eq_ix3 j⟩
  exact ProjPay.pay_apply x0 x1 x2 u r d

section Region
variable (V : (c : Dev nD) → (b : Ref sig .tc) → Buf (Elt Ideal) ((c : Thread nD τ).loc b))

/-- The printed index maps, decided over the 32 grid points: the feature window moves with the output window, the
    weight and bias windows stay at block (0, 0), and the output's block indices stay in range. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 7 ∧ win0_3.index t (1 : Fin 3) ≤ 3 :=
  (by decide +kernel : ∀ t : Fin grid0.N, _)

/-- Every (batch, row tile) pair is SOME grid point's output block. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- WHAT POINT `t` WRITES BACK: block `t` of the dense layer of the arrays as the region finds them. -/
theorem flushed_eq (c : Dev nD) (t : Fin cfg0.N) :
    (dat0 V c).flushed 3 t
      = ((cfg0.win 3).blk t).view.read (Elt Ideal) (G0 (V c main_arg1) (V c main_v0) (V c main_v1)) := by
  show (cfg0.win 3).cut (grid0.coords t) ((dat0 V c).after 3 t) = _
  rw [after0_3]
  unfold out0_3
  rw [View.canon_unit_zero hz3]
  simp only [View.ld_unit_zero (S := S1x512x256) hz3, View.ld_unit_zero (S := S256x256) hz2, View.ld_unit_zero (S := S1x256) hz2]
  obtain ⟨e0, e1, e2, e3, e4, e5, e6, e7, e8, e9⟩ := idx_facts t
  funext j
  show k0_pay1 (F := Ideal) (iblk0 V c 0 t) (iblk0 V c 1 t) (iblk0 V c 2 t) j
    = G0 (V c main_arg1) (V c main_v0) (V c main_v1) (((cfg0.win 3).blk t).view.emb j)
  refine (pay_at (iblk0 V c 0 t) (iblk0 V c 1 t) (iblk0 V c 2 t) j).trans ?_
  have hj0 : (j 0).val < 1 := (j 0).isLt
  have hj1 : (j 1).val < 512 := (j 1).isLt
  have hj2 : (j 2).val < 256 := (j 2).isLt
  unfold G0
  refine congrArg₂ (· + ·) (Finset.sum_congr rfl fun k _ => congrArg₂ (· * ·) ?_ ?_) ?_
  · show V c main_arg1 (((cfg0.win 0).blk t).view.emb (ix3 (0 : Fin 1) (j 1) k)) = V c main_arg1 _
    refine congrArg (V c main_arg1) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 512 + 1 * (j 1).val = win0_3.index t (1 : Fin 3) * 512 + 1 * (j 1).val; omega
    | ⟨2, _⟩ => show win0_0.index t (2 : Fin 3) * 256 + 1 * k.val = k.val; omega
  · show V c main_v0 (((cfg0.win 1).blk t).view.emb (ix2 k (j 2))) = V c main_v0 _
    refine congrArg (V c main_v0) (funext fun a => Fin.ext ?_)
    match a with
    | ⟨0, _⟩ => show win0_1.index t (0 : Fin 2) * 256 + 1 * k.val = k.val; omega
    | ⟨1, _⟩ => show win0_1.index t (1 : Fin 2) * 256 + 1 * (j 2).val = win0_3.index t (2 : Fin 3) * 256 + 1 * (j 2).val; omega
  · show V c main_v1 (((cfg0.win 2).blk t).view.emb (ix2 (0 : Fin 1) (j 2))) = V c main_v1 _
    refine congrArg (V c main_v1) (funext fun a => Fin.ext ?_)
    match a with
    | ⟨0, _⟩ => show win0_2.index t (0 : Fin 2) * 1 + 1 * 0 = 0; omega
    | ⟨1, _⟩ => show win0_2.index t (1 : Fin 2) * 256 + 1 * (j 2).val = win0_3.index t (2 : Fin 3) * 256 + 1 * (j 2).val; omega

/-- An index of the array is in point `t`'s block iff each coordinate is in the block's range on its axis. -/
theorem mem_blk (t : Fin cfg0.N) (i : S8x2048x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v2).slice (win0_3.rect t)).set ↔ _
  rw [View.set_slice_whole, Rect.mem_set_unit]
  exact Iff.rfl

/-- The 32 blocks tile the array. -/
theorem cover (i : S8x2048x256.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- THE ARRAY after the region: the dense layer of the arrays as the region finds them. -/
theorem final (c : Dev nD) : (dat0 V c).arrAt 3 cfg0.N = G0 (V c main_arg1) (V c main_v0) (V c main_v1) :=
  (dat0 V c).arrAt_eq_of_cover 3 (G0 (V c main_arg1) (V c main_v0) (V c main_v1)) (fun t _ => flushed_eq V c t) cover

end Region

end Cert.KernelIdeal.ProjValue

end
-- ==== Proof.AttnPay.lean ====
/-
  The second region's arithmetic read at an index. From its three loads — a [1,2048,256] slab of projected values
  `v`, a [1,512,2048] block of scores `x` and the matching [512,2048] block of the mask `y` — the attention kernel
  stores, at (row r, column d),
      (Σ_k exp (s[r,k] − μ[r]) · v[k,d]) / (Σ_k exp (s[r,k] − μ[r])),   s[r,k] = x[r,k] + y[r,k],  μ[r] = max_k s[r,k]
  (the maximum folded from −∞; the rounding of the weights to bf16 before the product is the identity on the
  extended reals).
-/
import proofs.«406694_j78752520339658_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnPay

open Cert.KernelIdeal Cert.KernelIdeal.Gen
open Idealize.ShloMosaic Idealize.ShloMosaic.TcCoe Idealize.ShloMosaic.ValueIdx Idealize.SL.Sem
open scoped BigOperators

/-! ### Layout steps of a per-row quantity: a vector made a column, a column spread over the row -/

/-- A length-512 vector cast to a [512,1] column reads, at (r, ·), the vector at r. -/
theorem col_apply {α : Type} (z : S512.Idx → α) (r : Fin 512) (c : Fin 1) :
    shapeCast S512x1 z shapeCasts_S512_S512x1 (ix2 r c) = z (ix1 r) :=
  shapeCast_apply z shapeCasts_S512_S512x1 _ _ (by
    have hc : c.val = 0 := by omega
    rw [Shape.rowMajor_val_one, Shape.rowMajor_val_two]
    show r.val = r.val * 1 + c.val
    omega)

/-- A [512,1] column broadcast along 2048 lanes reads, at (r, k), the column at r. -/
theorem spread2048_apply {α : Type} (y : S512x1.Idx → α) (r : Fin 512) (k : Fin 2048) :
    broadcastTo S512x2048 y broadcasts_S512x1_S512x2048 (ix2 r k) = y (ix2 r (0 : Fin 1)) := by
  refine broadcastTo_apply y broadcasts_S512x1_S512x2048 (ix2 r k) (ix2 r (0 : Fin 1)) fun ax => ?_
  match ax with
  | ⟨0, _⟩ => show r.val = if (512 : Nat) = 1 then 0 else r.val; rw [if_neg (by decide)]
  | ⟨1, _⟩ => show 0 = if (1 : Nat) = 1 then 0 else k.val; rw [if_pos rfl]

/-- A [512,1] column broadcast along 256 lanes reads, at (r, d), the column at r. -/
theorem spread256_apply {α : Type} (y : S512x1.Idx → α) (r : Fin 512) (d : Fin 256) :
    broadcastTo S512x256 y broadcasts_S512x1_S512x256 (ix2 r d) = y (ix2 r (0 : Fin 1)) := by
  refine broadcastTo_apply y broadcasts_S512x1_S512x256 (ix2 r d) (ix2 r (0 : Fin 1)) fun ax => ?_
  match ax with
  | ⟨0, _⟩ => show r.val = if (512 : Nat) = 1 then 0 else r.val; rw [if_neg (by decide)]
  | ⟨1, _⟩ => show 0 = if (1 : Nat) = 1 then 0 else d.val; rw [if_pos rfl]

/-- Row r with lane k put back. -/
theorem lift_row (r : Fin 512) (k : Fin (S512x2048.size 1)) :
    reduces_S512x2048_S512.lift (ix1 r) k = ix2 r (⟨k.val, k.isLt⟩ : Fin 2048) := by
  funext c; apply Fin.ext
  match c with
  | ⟨0, _⟩ => rfl
  | ⟨1, _⟩ => rfl

/-- The lane maximum of a [512,2048] block, at row r: the fold of `max` from −∞ over the row. -/
theorem rowmax_apply (v : FVec Ideal S512x2048 .f32) (r : Fin 512) :
    multiReduction .maximumf [1] S512 v 0xFF800000#32 reduces_S512x2048_S512 (.inl rfl) rfl (ix1 r)
      = (Finset.univ : Finset (Fin 2048)).fold max (Ideal.ofBits .f32 0xFF800000#32) (fun k => v (ix2 r k)) := by
  refine (Ideal.multiReduction_maximumf_single v 0xFF800000#32 reduces_S512x2048_S512 (.inl rfl) rfl (ix1 r)).trans ?_
  exact congrArg (fun f => Finset.fold max (Ideal.ofBits .f32 0xFF800000#32) f (Finset.univ : Finset (Fin 2048)))
    (funext fun k => congrArg v (lift_row r k))

/-- The lane sum of a [512,2048] block, at row r. -/
theorem rowsum_apply (v : FVec Ideal S512x2048 .f32) (r : Fin 512) :
    multiReduction .add [1] S512 v 0x00000000#32 reduces_S512x2048_S512 (.inl rfl) rfl (ix1 r)
      = ∑ k : Fin 2048, v (ix2 r k) := by
  refine (Ideal.multiReduction_add_single v 0x00000000#32 reduces_S512x2048_S512 (.inl rfl) rfl (ix1 r)).trans ?_
  exact Finset.sum_congr rfl fun k _ => congrArg v (lift_row r k)

/-! ### The contraction's operand indices, axis by axis -/

theorem lhs_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The matrix product into a zero accumulator, at (r, d): the sum over the 2048 keys. -/
theorem matmul_apply (a : FVec Ideal S512x2048 .bf16) (b : FVec Ideal S2048x256 .bf16) (r : Fin 512) (d : Fin 256) :
    matmul dot_S512x2048_S2048x256_S512x256_1_0_0_1_n_n none a b (constant (F := Ideal) S512x256 .f32 0x00000000#32) (ix2 r d)
      = ∑ k : Fin 2048, a (ix2 r k) * b (ix2 k d) := by
  simp only [matmul]
  rw [Ideal.matmul_constant_zero_apply, ← Equiv.sum_comp (ValueIdx.contrEquiv1 dot_S512x2048_S2048x256_S512x256_1_0_0_1_n_n 2048 rfl rfl).symm]
  refine Finset.sum_congr rfl fun k _ => ?_
  have hk := ValueIdx.contrEquiv1_symm_val dot_S512x2048_S2048x256_S512x256_1_0_0_1_n_n 2048 rfl rfl k
  have el : dot_S512x2048_S2048x256_S512x256_1_0_0_1_n_n.lhsIdx (ix2 r d) ((ValueIdx.contrEquiv1 dot_S512x2048_S2048x256_S512x256_1_0_0_1_n_n 2048 rfl rfl).symm k) = ix2 r k := funext fun a => Fin.ext (by
    match a with
    | ⟨0, _⟩ => exact lhs_0 _ _
    | ⟨1, _⟩ => exact (lhs_1 _ _).trans hk)
  have er : dot_S512x2048_S2048x256_S512x256_1_0_0_1_n_n.rhsIdx (ix2 r d) ((ValueIdx.contrEquiv1 dot_S512x2048_S2048x256_S512x256_1_0_0_1_n_n 2048 rfl rfl).symm k) = ix2 k d := funext fun a => Fin.ext (by
    match a with
    | ⟨0, _⟩ => exact (rhs_0 _ _).trans hk
    | ⟨1, _⟩ => exact rhs_1 _ _)
  rw [el, er]

/-! ### The block's scores, maxima and weights, and the stored block -/

/-- The masked score of the block's row r against key k. -/
def bscore (x : Vec Ideal S1x512x2048 .f32) (y : Vec Ideal S512x2048 .f32) (r : Fin 512) (k : Fin 2048) : EReal :=
  x (ix3 (0 : Fin 1) r k) + y (ix2 r k)

/-- The row's maximum score, folded from −∞. -/
def bmax (x : Vec Ideal S1x512x2048 .f32) (y : Vec Ideal S512x2048 .f32) (r : Fin 512) : EReal :=
  (Finset.univ : Finset (Fin 2048)).fold max (Ideal.ofBits .f32 0xFF800000#32) (bscore x y r)

/-- The unnormalised weight. -/
def bweight (x : Vec Ideal S1x512x2048 .f32) (y : Vec Ideal S512x2048 .f32) (r : Fin 512) (k : Fin 2048) : EReal :=
  Ideal.exp (bscore x y r k - bmax x y r)

/-- The block of scores the kernel forms. -/
abbrev sblk (x : Vec Ideal S1x512x2048 .f32) (y : Vec Ideal S512x2048 .f32) : FVec Ideal S512x2048 .f32 :=
  addf (shapeCast S512x2048 x shapeCasts_S1x512x2048_S512x2048) y

theorem sblk_apply (x : Vec Ideal S1x512x2048 .f32) (y : Vec Ideal S512x2048 .f32) (r : Fin 512) (k : Fin 2048) :
    sblk x y (ix2 r k) = bscore x y r k :=
  congrArg (· + y (ix2 r k)) (shapeCast_1ab_ab_apply x shapeCasts_S1x512x2048_S512x2048 r k)

/-- The block of weights the kernel forms. -/
abbrev wblk (x : Vec Ideal S1x512x2048 .f32) (y : Vec Ideal S512x2048 .f32) : FVec Ideal S512x2048 .f32 :=
  exp (subf (sblk x y) (broadcastTo S512x2048 (shapeCast S512x1
    (multiReduction .maximumf [1] S512 (sblk x y) 0xFF800000#32 reduces_S512x2048_S512 (.inl rfl) rfl) shapeCasts_S512_S512x1)
    broadcasts_S512x1_S512x2048))

theorem wblk_apply (x : Vec Ideal S1x512x2048 .f32) (y : Vec Ideal S512x2048 .f32) (r : Fin 512) (k : Fin 2048) :
    wblk x y (ix2 r k) = bweight x y r k := by
  show Ideal.exp (sblk x y (ix2 r k) - broadcastTo S512x2048 (shapeCast S512x1
    (multiReduction .maximumf [1] S512 (sblk x y) 0xFF800000#32 reduces_S512x2048_S512 (.inl rfl) rfl) shapeCasts_S512_S512x1)
    broadcasts_S512x1_S512x2048 (ix2 r k)) = _
  rw [spread2048_apply, col_apply, rowmax_apply, sblk_apply]
  unfold bweight bmax
  exact congrArg (fun f => Ideal.exp (bscore x y r k - Finset.fold max (Ideal.ofBits .f32 0xFF800000#32) f (Finset.univ : Finset (Fin 2048))))
    (funext fun k' => sblk_apply x y r k')

/-- The stored block at (u, r, d) — `u` the unit batch coordinate. -/
theorem pay_apply (v : Vec Ideal S1x2048x256 .bf16) (x : Vec Ideal S1x512x2048 .f32) (y : Vec Ideal S512x2048 .f32)
    (u : Fin 1) (r : Fin 512) (d : Fin 256) :
    k1_pay1 (F := Ideal) v x y (ix3 u r d)
      = Ideal.div (∑ k : Fin 2048, bweight x y r k * v (ix3 (0 : Fin 1) k d)) (∑ k : Fin 2048, bweight x y r k) := by
  unfold k1_pay1
  refine (shapeCast_ab_1ab_apply _ _ u r d).trans ?_
  show Ideal.div
      (matmul dot_S512x2048_S2048x256_S512x256_1_0_0_1_n_n none (truncf .bf16 (wblk x y) bitsLt_bf16_f32)
        (shapeCast S2048x256 v shapeCasts_S1x2048x256_S2048x256) (constant (F := Ideal) S512x256 .f32 0x00000000#32) (ix2 r d))
      (broadcastTo S512x256 (shapeCast S512x1
        (multiReduction .add [1] S512 (wblk x y) 0x00000000#32 reduces_S512x2048_S512 (.inl rfl) rfl) shapeCasts_S512_S512x1)
        broadcasts_S512x1_S512x256 (ix2 r d)) = _
  refine congrArg₂ Ideal.div ((matmul_apply _ _ r d).trans ?_) ?_
  · refine Finset.sum_congr rfl fun k _ => ?_
    refine congrArg₂ (· * ·) (wblk_apply x y r k) ?_
    exact shapeCast_1ab_ab_apply v shapeCasts_S1x2048x256_S2048x256 k d
  · rw [spread256_apply, col_apply, rowsum_apply]
    exact Finset.sum_congr rfl fun k _ => wblk_apply x y r k

end Cert.KernelIdeal.AttnPay

end
-- ==== Proof.AttnValue.lean ====
/-
  The second region's result array. Grid point t = (q, b) of the 4 × 8 grid stores the [1,512,256] block of query
  rows 512q … 512q+511 of batch b. Its body loads batch b's [2048,256] slab out of the whole resident value array,
  the block of scores and the matching rows of the mask, and stores — read through the window — the block of
      attention[b,n,d] = (Σ_k w[b,n,k] · Vv[b,k,d]) / (Σ_k w[b,n,k]),   w the unnormalised softmax weights of corr + mask,
  over the arrays the region finds. The 32 blocks tile the array, so after the region the array IS that function.
-/
import proofs.«406694_j78752520339658_3_alg».proof.Proof.Gen.KernelIdeal.Frame
import proofs.«406694_j78752520339658_3_alg».proof.Proof.AttnPay
import proofs.«406694_j78752520339658_3_alg».proof.Proof.Spec
import Idealize.ShloMosaic.Lib.Pipeline.Value
import Idealize.ShloMosaic.Lib.Tactic

set_option maxRecDepth 16384

noncomputable section

namespace Cert.KernelIdeal.AttnValue

open Cert.KernelIdeal Cert.KernelIdeal.Gen Cert.Attn
open Idealize.ShloMosaic Idealize.ShloMosaic.TcCoe Idealize.ShloMosaic.ValueIdx Idealize.SL.Sem Idealize.ShloMosaic.Tactic
open Idealize.ShloMosaic.Pipeline (Dat)
open scoped BigOperators

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer, whatever memrefs it runs on: its one covering store's
    payload, of the slab of values at the grid point's batch offset and of the two score blocks, each read whole. -/
theorem out_eq {F : FTy → Type} [FloatOps F] (c : Dev nD) (i : grid1.Coords)
    (a2 : Memref sig .tc .vmem S1x512x2048 .f32) (h2 : a2.IsWhole)
    (a3 : Memref sig .tc .vmem S512x2048 .f32) (h3 : a3.IsWhole)
    (a4 : Memref sig .tc .vmem S8x2048x256 .bf16) (h4 : a4.IsWhole)
    (a5 : Memref sig .tc .vmem S1x512x256 .f32) (h5 : a5.IsWhole)
    (x0 : Vec F S1x512x2048 .f32) (x1 : Vec F S512x2048 .f32) (x2 : Vec F S8x2048x256 .bf16) :
    out1_A_3 c i a2 h2 a3 h3 a4 h4 a5 h5 x0 x1 x2
      = k1_pay1 (View.ld x2 (Rect.unit (s := S8x2048x256) (k1_off1 i) S1x2048x256.size (k1_off1_inb i))) x0 x1 := by
  unfold out1_A_3
  rw [View.read_writes_eq_canon _ _ _ (cover1_A_3 c i a2 h2 a3 h3 a4 h4 a5 h5 x0 x1 x2)]
  unfold kernelRun1_A
  dsimp only
  sl_unfold_words
  rw [View.canon_unit_zero hz3]
  simp only [View.readAt_eq_ld, h2.read_unread, h3.read_unread, h4.read_unread,
    View.ld_unit_zero (S := S1x512x2048) hz3, View.ld_unit_zero (S := S512x2048) hz2]

/-- The stored block at any index of the block. -/
theorem pay_at (v : Vec Ideal S1x2048x256 .bf16) (x : Vec Ideal S1x512x2048 .f32) (y : Vec Ideal S512x2048 .f32)
    (j : S1x512x256.Idx) :
    k1_pay1 (F := Ideal) v x y j
      = Ideal.div (∑ k : Fin 2048, AttnPay.bweight x y (j 1) k * v (ix3 (0 : Fin 1) k (j 2)))
          (∑ k : Fin 2048, AttnPay.bweight x y (j 1) k) := by
  obtain ⟨u, r, d, rfl⟩ : ∃ (u : Fin 1) (r : Fin 512) (d : Fin 256), j = ix3 u r d := ⟨j 0, j 1, j 2, eq_ix3 j⟩
  exact AttnPay.pay_apply v x y u r d

/-- A block's weights are the array's weights once its scores are the array's scores. -/
theorem bweight_eq (x : Vec Ideal S1x512x2048 .f32) (y : Vec Ideal S512x2048 .f32) (r : Fin 512)
    (X : SC.Idx → EReal) (M : SM.Idx → EReal) (b : Fin 8) (n : Fin 2048)
    (h : ∀ k, AttnPay.bscore x y r k = score X M b n k) (k : Fin 2048) :
    AttnPay.bweight x y r k = weight X M b n k := by
  have hf : AttnPay.bscore x y r = score X M b n := funext h
  unfold AttnPay.bweight AttnPay.bmax weight rowMax
  rw [hf]

section Region
variable (V : (c : Dev nD) → (b : Ref sig .tc) → Buf (Elt Ideal) ((c : Thread nD τ).loc b))

/-- The printed index maps, decided over the 32 grid points: the score window moves with the output window, the mask
    window follows the output's row tile, the value window stays at block (0,0,0), the slab's batch offset is the
    output's batch index, and the output's block indices stay in range. -/
theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = 0 ∧ win1_3.index t (2 : Fin 3) = 0
    ∧ win1_1.index t (0 : Fin 2) = win1_3.index t (1 : Fin 3) ∧ win1_1.index t (1 : Fin 2) = 0
    ∧ win1_2.index t (0 : Fin 3) = 0 ∧ win1_2.index t (1 : Fin 3) = 0 ∧ win1_2.index t (2 : Fin 3) = 0
    ∧ (grid1.coords t (1 : Fin 2)).val = win1_3.index t (0 : Fin 3)
    ∧ win1_3.index t (0 : Fin 3) ≤ 7 ∧ win1_3.index t (1 : Fin 3) ≤ 3 :=
  (by decide +kernel : ∀ t : Fin grid1.N, _)

/-- Every (batch, row tile) pair is SOME grid point's output block. -/
theorem idx_onto : ∀ (q0 : Fin 8) (q1 : Fin 4), ∃ t : Fin cfg1.N, win1_3.index t = ![q0.val, q1.val, 0] :=
  (by decide +kernel : ∀ (q0 : Fin 8) (q1 : Fin 4), ∃ t : Fin grid1.N, win1_3.index t = ![q0.val, q1.val, 0])

/-- WHAT POINT `t` WRITES BACK: block `t` of the attention over the arrays as the region finds them. -/
theorem flushed_eq (c : Dev nD) (t : Fin cfg1.N) :
    (dat1 V c).flushed 3 t
      = ((cfg1.win 3).blk t).view.read (Elt Ideal) (attnDivAfter (V c main_arg0) (V c main_arg3) (V c main_v2)) := by
  show (cfg1.win 3).cut (grid1.coords t) ((dat1 V c).after 3 t) = _
  rw [after1_3]
  unfold outsAt1
  rw [out_eq c (grid1.coords t) (ms1_0 t) (hs1_0 t) (ms1_1 t) (hs1_1 t) (ms1_2 t) (hs1_2 t) (ms1_3 t) (hs1_3 t)
    (iblk1 V c 0 t) (iblk1 V c 1 t) (iblk1 V c 2 t)]
  obtain ⟨e0, e1, e2, e3, e4, e5, e6, e7, e8, e9, e10, e11⟩ := idx_facts t
  have eoff := k1_off1_eq (grid1.coords t)
  funext j
  show k1_pay1 (F := Ideal)
      (View.ld (iblk1 V c 2 t) (Rect.unit (s := S8x2048x256) (k1_off1 (grid1.coords t)) S1x2048x256.size (k1_off1_inb (grid1.coords t))))
      (iblk1 V c 0 t) (iblk1 V c 1 t) j
    = attnDivAfter (V c main_arg0) (V c main_arg3) (V c main_v2) (((cfg1.win 3).blk t).view.emb j)
  refine (pay_at _ (iblk1 V c 0 t) (iblk1 V c 1 t) j).trans ?_
  have hj0 : (j 0).val < 1 := (j 0).isLt
  have hj1 : (j 1).val < 512 := (j 1).isLt
  have hj2 : (j 2).val < 256 := (j 2).isLt
  have hb : win1_3.index t (0 : Fin 3) * 1 + 1 * (j 0).val < 8 := by omega
  have hn : win1_3.index t (1 : Fin 3) * 512 + 1 * (j 1).val < 2048 := by omega
  have hw : ∀ k : Fin 2048, AttnPay.bweight (iblk1 V c 0 t) (iblk1 V c 1 t) (j 1) k
      = weight (V c main_arg0) (V c main_arg3) ((((cfg1.win 3).blk t).view.emb j) 0) ((((cfg1.win 3).blk t).view.emb j) 1) k := by
    refine bweight_eq (iblk1 V c 0 t) (iblk1 V c 1 t) (j 1) (V c main_arg0) (V c main_arg3) _ _ fun k => ?_
    unfold AttnPay.bscore score
    refine congrArg₂ (· + ·) ?_ ?_
    · show V c main_arg0 (((cfg1.win 0).blk t).view.emb (ix3 (0 : Fin 1) (j 1) k)) = V c main_arg0 _
      refine congrArg (V c main_arg0) (funext fun a => Fin.ext ?_)
      match a with
      | ⟨0, _⟩ => show win1_0.index t (0 : Fin 3) * 1 + 1 * 0 = win1_3.index t (0 : Fin 3) * 1 + 1 * (j 0).val; omega
      | ⟨1, _⟩ => show win1_0.index t (1 : Fin 3) * 512 + 1 * (j 1).val = win1_3.index t (1 : Fin 3) * 512 + 1 * (j 1).val; omega
      | ⟨2, _⟩ => show win1_0.index t (2 : Fin 3) * 2048 + 1 * k.val = k.val; omega
    · show V c main_arg3 (((cfg1.win 1).blk t).view.emb (ix2 (j 1) k)) = V c main_arg3 _
      refine congrArg (V c main_arg3) (funext fun a => Fin.ext ?_)
      match a with
      | ⟨0, _⟩ => show win1_1.index t (0 : Fin 2) * 512 + 1 * (j 1).val = win1_3.index t (1 : Fin 3) * 512 + 1 * (j 1).val; omega
      | ⟨1, _⟩ => show win1_1.index t (1 : Fin 2) * 2048 + 1 * k.val = k.val; omega
  unfold attnDivAfter denom
  refine congrArg₂ Ideal.div (Finset.sum_congr rfl fun k _ => congrArg₂ (· * ·) (hw k) ?_) (Finset.sum_congr rfl fun k _ => hw k)
  show V c main_v2 (((cfg1.win 2).blk t).view.emb
      ((Rect.unit (s := S8x2048x256) (k1_off1 (grid1.coords t)) S1x2048x256.size (k1_off1_inb (grid1.coords t))).idx (ix3 (0 : Fin 1) k (j 2))))
    = V c main_v2 _
  refine congrArg (V c main_v2) (funext fun a => Fin.ext ?_)
  match a with
  | ⟨0, _⟩ =>
    show win1_2.index t (0 : Fin 3) * 8 + 1 * (k1_off1 (grid1.coords t) (0 : Fin 3) + 1 * 0) = win1_3.index t (0 : Fin 3) * 1 + 1 * (j 0).val
    rw [eoff]; show win1_2.index t (0 : Fin 3) * 8 + 1 * ((grid1.coords t (1 : Fin 2)).val + 1 * 0) = _; omega
  | ⟨1, _⟩ =>
    show win1_2.index t (1 : Fin 3) * 2048 + 1 * (k1_off1 (grid1.coords t) (1 : Fin 3) + 1 * k.val) = k.val
    rw [eoff]; show win1_2.index t (1 : Fin 3) * 2048 + 1 * (0 + 1 * k.val) = _; omega
  | ⟨2, _⟩ =>
    show win1_2.index t (2 : Fin 3) * 256 + 1 * (k1_off1 (grid1.coords t) (2 : Fin 3) + 1 * (j 2).val) = win1_3.index t (2 : Fin 3) * 256 + 1 * (j 2).val
    rw [eoff]; show win1_2.index t (2 : Fin 3) * 256 + 1 * (0 + 1 * (j 2).val) = _; omega

/-- An index of the array is in point `t`'s block iff each coordinate is in the block's range on its axis. -/
theorem mem_blk (t : Fin cfg1.N) (i : S8x2048x256.Idx) :
    i ∈ ((cfg1.win 3).blk t).view.set ↔ ∀ a : Fin 3, win1_3.index t a * S1x512x256.size a ≤ (i a).val ∧ (i a).val < win1_3.index t a * S1x512x256.size a + S1x512x256.size a := by
  show i ∈ ((View.whole main_v3).slice (win1_3.rect t)).set ↔ _
  rw [View.set_slice_whole, Rect.mem_set_unit]
  exact Iff.rfl

/-- The 32 blocks tile the array. -/
theorem cover (i : S8x2048x256.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 256 ≤ (i 2).val ∧ (i 2).val < win1_3.index t (2 : Fin 3) * 256 + 256; omega

/-- THE ARRAY after the region: attention over the arrays as the region finds them. -/
theorem final (c : Dev nD) :
    (dat1 V c).arrAt 3 cfg1.N = attnDivAfter (V c main_arg0) (V c main_arg3) (V c main_v2) :=
  (dat1 V c).arrAt_eq_of_cover 3 (attnDivAfter (V c main_arg0) (V c main_arg3) (V c main_v2)) (fun t _ => flushed_eq V c t) cover

end Region

end Cert.KernelIdeal.AttnValue

end
-- ==== Proof.KernelValue.lean ====
/-
  The idealized kernel's result, as a function of the arguments. The run names the result array as what the second
  region leaves; the second region leaves attention over the score and mask arguments and over what the first region
  left; the first region leaves the dense layer of the features against the transposed weight and the bias row that
  two host operations made — which, read at an index, is the specification's projected-value array. So the result is
  the specification's attention with the division AFTER the contraction, over the projected values.
-/
import proofs.«406694_j78752520339658_3_alg».proof.Proof.KernelRun
import proofs.«406694_j78752520339658_3_alg».proof.Proof.ProjValue
import proofs.«406694_j78752520339658_3_alg».proof.Proof.AttnValue
import proofs.«406694_j78752520339658_3_alg».proof.Proof.Spec
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.Attn
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ### What the first region finds -/

theorem V1_arg1 (c : Dev nD) : V1 m ρ c main_arg1 = m ((c : Thread nD τ).loc main_arg1) := by
  dsimp only [V1, W1, W0, hostOps0]
  after_results

theorem V1_v0 (c : Dev nD) :
    V1 m ρ c main_v0 = transpose S256x256 [1, 0] (m ((c : Thread nD τ).loc main_arg4)) transposes_S256x256_S256x256_1_0 := by
  dsimp only [V1, W1, W0, hostOps0]
  after_results

theorem V1_v1 (c : Dev nD) :
    V1 m ρ c main_v1 = shapeCast S1x256 (m ((c : Thread nD τ).loc main_arg5)) shapeCasts_S256_S1x256 := by
  dsimp only [V1, W1, W0, hostOps0]
  after_results
  rfl

/-! ### What the second region finds -/

theorem V2_arg0 (c : Dev nD) : V2 m ρ c main_arg0 = m ((c : Thread nD τ).loc main_arg0) :=
  (W2_of_ne m ρ c main_arg0 (by decide)).trans (by
    show StableHlo.after hostOps0 (W0 m ρ c) (Proc.devRef .tc main_arg0) = _
    dsimp only [W0, hostOps0]
    after_results)

theorem V2_arg3 (c : Dev nD) : V2 m ρ c main_arg3 = m ((c : Thread nD τ).loc main_arg3) :=
  (W2_of_ne m ρ c main_arg3 (by decide)).trans (by
    show StableHlo.after hostOps0 (W0 m ρ c) (Proc.devRef .tc main_arg3) = _
    dsimp only [W0, hostOps0]
    after_results)

/-- The first region's result is the specification's projected-value array of the launch arguments. -/
theorem V2_proj (c : Dev nD) :
    V2 m ρ c main_v2
      = valueArr (m ((c : Thread nD τ).loc main_arg1)) (m ((c : Thread nD τ).loc main_arg4)) (m ((c : Thread nD τ).loc main_arg5)) := by
  rw [GenRun.V2_proj, ProjValue.final (V1 m ρ) c, V1_arg1, V1_v0, V1_v1]
  funext i
  unfold ProjValue.G0 valueArr value
  refine congrArg₂ (· + ·) (Finset.sum_congr rfl fun k _ => congrArg₂ (· * ·) rfl ?_) ?_
  · exact transpose_ix2_apply (m ((c : Thread nD τ).loc main_arg4)) transposes_S256x256_S256x256_1_0 k (i 2)
  · exact shapeCast_a_1a_apply (m ((c : Thread nD τ).loc main_arg5)) shapeCasts_S256_S1x256 (0 : Fin 1) (i 2)

/-- THE RESULT ARRAY after the run. -/
theorem result_eq (c : Dev nD) :
    W3 m ρ c (Proc.devRef .tc main_v3)
      = attnDivAfter (m ((c : Thread nD τ).loc main_arg0)) (m ((c : Thread nD τ).loc main_arg3))
          (valueArr (m ((c : Thread nD τ).loc main_arg1)) (m ((c : Thread nD τ).loc main_arg4)) (m ((c : Thread nD τ).loc main_arg5))) := by
  rw [GenRun.W3_result, AttnValue.final (V2 m ρ) c, V2_arg0, V2_arg3, V2_proj]

/-- The run, read: the result array at the specification's function of the arguments, the arguments unchanged. -/
theorem run : θ_run defs (onTc (τ := τ) (main (F := Ideal))) ⟨m, fun _ => 0, ρ⟩ (fun r => ∀ c : Dev nD,
      r.2.mem ((c.tc : Thread nD τ).loc main_v3)
        = attnDivAfter (m ((c : Thread nD τ).loc main_arg0)) (m ((c : Thread nD τ).loc main_arg3))
            (valueArr (m ((c : Thread nD τ).loc main_arg1)) (m ((c : Thread nD τ).loc main_arg4)) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (GenRun.run_main m ρ)

end Cert.KernelIdeal.KernelValue

end
-- ==== Proof.lean ====
/-
  Masked-softmax attention over a projected value array: the kernel against its jnp reference, on the extended reals.

  Both programs compute, for batch b, query row n and channel d,
      out[b,n,d] = Σ_k softmax_k (corr[b,n,k] + mask[n,k]) · (Σ_c feat[b,k,c] · v_w[d,c] + v_b[d]).
  The kernel does it in two tiled passes: a dense layer of the features (stored in a narrower float format, which is
  the identity on the extended reals), then, per block of 512 query rows, the unnormalised weights
  exp (s − max_k s), their contraction with the batch's projected values, and ONE division by the row's weight sum
  after the contraction. The reference normalises the weights first and contracts afterwards. The two differ by
  where the division stands: (Σ_k p_k · v_k) / ℓ against Σ_k (p_k / ℓ) · v_k. Under the precondition every input is a
  real number, so every weight is a positive real and ℓ a positive real, and division by ℓ is multiplication by a
  real, which distributes over the finite sum: the results agree entry by entry. (Without finiteness the law fails —
  it is distributivity — so the precondition is used.)

  The three frame conjuncts are the programs' runs with the result dropped; the idealization rewrote nothing.
-/
import proofs.«406694_j78752520339658_3_alg».proof.Defs
import proofs.«406694_j78752520339658_3_alg».proof.Proof.Gen.Kernel
import proofs.«406694_j78752520339658_3_alg».proof.Proof.Gen.Kernel.Skeleton
import proofs.«406694_j78752520339658_3_alg».proof.Proof.Gen.Kernel.Launch
import proofs.«406694_j78752520339658_3_alg».proof.Proof.Gen.Kernel.Points
import proofs.«406694_j78752520339658_3_alg».proof.Proof.Gen.Kernel.Frame
import proofs.«406694_j78752520339658_3_alg».proof.Proof.Gen.KernelIdeal
import proofs.«406694_j78752520339658_3_alg».proof.Proof.Gen.KernelIdeal.Skeleton
import proofs.«406694_j78752520339658_3_alg».proof.Proof.Gen.KernelIdeal.Launch
import proofs.«406694_j78752520339658_3_alg».proof.Proof.Gen.KernelIdeal.Points
import proofs.«406694_j78752520339658_3_alg».proof.Proof.Gen.KernelIdeal.Frame
import proofs.«406694_j78752520339658_3_alg».proof.Proof.Gen.ReferenceIdeal
import proofs.«406694_j78752520339658_3_alg».proof.Proof.Gen.Pre_finite_inputs
import proofs.«406694_j78752520339658_3_alg».proof.Proof.Gen.ReferenceIdeal.Run
import proofs.«406694_j78752520339658_3_alg».proof.Proof.Gen.ReferenceIdeal.Read
import proofs.«406694_j78752520339658_3_alg».proof.Proof.Spec
import proofs.«406694_j78752520339658_3_alg».proof.Proof.Finite
import proofs.«406694_j78752520339658_3_alg».proof.Proof.RefValue
import proofs.«406694_j78752520339658_3_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at attention with the division after the contraction, the reference's at attention
    with the division before it, of arguments that agree; on the finite inputs the precondition admits the two are
    one array. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, _, a3, a4, a5⟩ := hagree c
  obtain ⟨h0, h1, h3, h4, h5⟩ := Cert.Finite.reals_of_pre _ _ _ _ _ _ (hpre c)
  rw [Cert.ReferenceIdeal.Read.val_main_v18_eq, Cert.ReferenceIdeal.RefValue.result_eq, a0, a1, a3, a4, a5]
  exact (Cert.Attn.attnDivAfter_eq_attnDivBefore h0 h3 h1 h4 h5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
